-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16x16384 : Shape := ⟨3, ![8, 16, 16384]⟩
abbrev S16384x16384 : Shape := ⟨2, ![16384, 16384]⟩
abbrev S16384 : Shape := ⟨1, ![16384]⟩
abbrev S_ : Shape := ⟨0, ![]⟩

class Facts : Prop where
  bcast_S_S8x16x16384 : S_.BroadcastsInDim S8x16x16384 (![] : Fin 0 → Fin S8x16x16384.rank)
  reducesTo_S8x16x16384_S_d0_1_2 : S8x16x16384.ReducesTo [0, 1, 2] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S16384 : S_.BroadcastsInDim S16384 (![] : Fin 0 → Fin S16384.rank)
  reducesTo_S16384_S_d0 : S16384.ReducesTo [0] S_

variable [Facts]

def fn_part1 {F : FTy → Type} [FloatOps F] (main_v13 : IVec S_ 1) (main_v16 : IVec S16384 1) : IVec S_ 1 :=
  let main_c_5 : IVec S_ 1 := constantI S_ 1 1#1
  let main_v17 : IVec S_ 1 := (fun x v => Host.reduce IntOp.andi x v reducesTo_S16384_S_d0 h_S_) main_v16 main_c_5
  let main_v18 : IVec S_ 1 := andi main_v13 main_v17
  main_v18

def fn {F : FTy → Type} [FloatOps F] (main_arg0 : FVec F S8x16x16384 .f32) (main_arg1 : FVec F S8x16x16384 .f32) (main_arg2 : FVec F S16384x16384 .f32) (main_arg3 : FVec F S16384 .f32) : IVec S_ 1 :=
  let main_v0 : FVec F S8x16x16384 .f32 := Host.absf main_arg0
  let main_cst : FVec F S_ .f32 := constant S_ .f32 0x7F800000#32
  let main_v1 : FVec F S8x16x16384 .f32 := broadcastInDim S8x16x16384 ![] bcast_S_S8x16x16384 main_cst
  let main_v2 : IVec S8x16x16384 1 := cmpf .olt main_v0 main_v1
  let main_c : IVec S_ 1 := constantI S_ 1 1#1
  let main_v3 : IVec S_ 1 := (fun x v => Host.reduce IntOp.andi x v reducesTo_S8x16x16384_S_d0_1_2 h_S_) main_v2 main_c
  let main_v4 : FVec F S8x16x16384 .f32 := Host.absf main_arg1
  let main_cst_0 : FVec F S_ .f32 := constant S_ .f32 0x7F800000#32
  let main_v5 : FVec F S8x16x16384 .f32 := broadcastInDim S8x16x16384 ![] bcast_S_S8x16x16384 main_cst_0
  let main_v6 : IVec S8x16x16384 1 := cmpf .olt main_v4 main_v5
  let main_c_1 : IVec S_ 1 := constantI S_ 1 1#1
  let main_v7 : IVec S_ 1 := (fun x v => Host.reduce IntOp.andi x v reducesTo_S8x16x16384_S_d0_1_2 h_S_) main_v6 main_c_1
  let main_v8 : IVec S_ 1 := andi main_v3 main_v7
  let main_v9 : FVec F S16384x16384 .f32 := Host.absf main_arg2
  let main_cst_2 : FVec F S_ .f32 := constant S_ .f32 0x7F800000#32
  let main_v10 : FVec F S16384x16384 .f32 := broadcastInDim S16384x16384 ![] bcast_S_S16384x16384 main_cst_2
  let main_v11 : IVec S16384x16384 1 := cmpf .olt main_v9 main_v10
  let main_c_3 : IVec S_ 1 := constantI S_ 1 1#1
  let main_v12 : IVec S_ 1 := (fun x v => Host.reduce IntOp.andi x v reducesTo_S16384x16384_S_d0_1 h_S_) main_v11 main_c_3
  let main_v13 : IVec S_ 1 := andi main_v8 main_v12
  let main_v14 : FVec F S16384 .f32 := Host.absf main_arg3
  let main_cst_4 : FVec F S_ .f32 := constant S_ .f32 0x7F800000#32
  let main_v15 : FVec F S16384 .f32 := broadcastInDim S16384 ![] bcast_S_S16384 main_cst_4
  let main_v16 : IVec S16384 1 := cmpf .olt main_v14 main_v15
  fn_part1 (F := F) main_v13 main_v16
-- ==== Kernel.lean ====
abbrev S8x16x16384 : Shape := ⟨3, ![8, 16, 16384]⟩
abbrev S16384x16384 : Shape := ⟨2, ![16384, 16384]⟩
abbrev S16384 : Shape := ⟨1, ![16384]⟩
abbrev S128x16384 : Shape := ⟨2, ![128, 16384]⟩
abbrev S256x16384 : Shape := ⟨2, ![256, 16384]⟩
abbrev S1x16384 : Shape := ⟨2, ![1, 16384]⟩
abbrev S256x1024 : Shape := ⟨2, ![256, 1024]⟩
abbrev S2048x1024 : Shape := ⟨2, ![2048, 1024]⟩
abbrev S1x2048 : Shape := ⟨2, ![1, 2048]⟩
abbrev S256x2048 : Shape := ⟨2, ![256, 2048]⟩

abbrev nBuf : Space → Nat
  | .hbm => 11
  | .vmem => 9
  | .smem => 0
  | _ => 0

abbrev bufTy : (tb : Table) → Fin (tcTables nBuf tb) → BufTy
  | .hbm, ⟨0, _⟩ => ⟨S8x16x16384, .f32⟩
  | .hbm, ⟨1, _⟩ => ⟨S8x16x16384, .f32⟩
  | .hbm, ⟨2, _⟩ => ⟨S16384x16384, .f32⟩
  | .hbm, ⟨3, _⟩ => ⟨S16384, .f32⟩
  | .hbm, ⟨4, _⟩ => ⟨S128x16384, .f32⟩
  | .hbm, ⟨5, _⟩ => ⟨S128x16384, .f32⟩
  | .hbm, ⟨6, _⟩ => ⟨S256x16384, .f32⟩
  | .hbm, ⟨7, _⟩ => ⟨S1x16384, .f32⟩
  | .hbm, ⟨8, _⟩ => ⟨S256x16384, .f32⟩
  | .hbm, ⟨9, _⟩ => ⟨S128x16384, .f32⟩
  | .hbm, ⟨10, _⟩ => ⟨S128x16384, .f32⟩
  | .local _ .vmem, ⟨0, _⟩ => ⟨S256x1024, .f32⟩
  | .local _ .vmem, ⟨1, _⟩ => ⟨S256x1024, .f32⟩
  | .local _ .vmem, ⟨2, _⟩ => ⟨S2048x1024, .f32⟩
  | .local _ .vmem, ⟨3, _⟩ => ⟨S2048x1024, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | _, _ => ⟨S8x16x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v14 : BitVec 1 := Scalar.cmpi .eq arg1 c15_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S8x16x16384_S128x16384 : S8x16x16384.ShapeCasts S128x16384
  concatenates_S128x16384_S128x16384_S256x16384_d0 : Shape.Concatenates [S128x16384, S128x16384] S256x16384 0
  shapeCasts_S16384_S1x16384 : S16384.ShapeCasts S1x16384
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  slices_S256x16384_S128x16384_0_0 : S256x16384.Slices ![0, 0] S128x16384
  slices_S256x16384_S128x16384_128_0 : S256x16384.Slices ![128, 0] S128x16384
  dot_S256x1024_S2048x1024_S256x2048_1_1_0_0_n_n_wf : DotDims.WF S256x1024 S2048x1024 S256x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S256x16384.size a
  hwx0_0 : ∀ i : grid0.Coords, EltTy.bits .f32 = 32 ∨ (Rect.block (s := S256x16384) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S16384x16384.size a
  hwx0_1 : ∀ i : grid0.Coords, EltTy.bits .f32 = 32 ∨ (Rect.block (s := S16384x16384) S2048x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x16384.size a
  hwx0_2 : ∀ i : grid0.Coords, EltTy.bits .f32 = 32 ∨ (Rect.block (s := S1x16384) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S256x16384.size a
  hwx0_3 : ∀ i : grid0.Coords, EltTy.bits .f32 = 32 ∨ (Rect.block (s := S256x16384) S256x2048.size (cc0_transform_3 i) (hinb0_3 i)).WholeWords (EltTy.packing .f32)

variable [Facts₀]

def dot_S256x1024_S2048x1024_S256x2048_1_1_0_0_n_n : DotDims S256x1024 S2048x1024 S256x2048 where
  lhsContracting := [1]
  rhsContracting := [1]
  lhsNonContracting := [0]
  rhsNonContracting := [0]
  lhsBatch := []
  rhsBatch := []
  wf := dot_S256x1024_S2048x1024_S256x2048_1_1_0_0_n_n_wf

abbrev win0_0 : Pipeline.Window sig grid0 :=
  Pipeline.Window.ofSpec (Memref.whole main_v2) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S256x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8x16x16384 : Shape := ⟨3, ![8, 16, 16384]⟩
abbrev S16384x16384 : Shape := ⟨2, ![16384, 16384]⟩
abbrev S16384 : Shape := ⟨1, ![16384]⟩
abbrev S128x16384 : Shape := ⟨2, ![128, 16384]⟩
abbrev S1x16384 : Shape := ⟨2, ![1, 16384]⟩

abbrev nBuf : Space → Nat
  | .hbm => 14
  | .vmem => 0
  | .smem => 0
  | _ => 0

abbrev bufTy : (tb : Table) → Fin (tcTables nBuf tb) → BufTy
  | .hbm, ⟨0, _⟩ => ⟨S8x16x16384, .f32⟩
  | .hbm, ⟨1, _⟩ => ⟨S8x16x16384, .f32⟩
  | .hbm, ⟨2, _⟩ => ⟨S16384x16384, .f32⟩
  | .hbm, ⟨3, _⟩ => ⟨S16384, .f32⟩
  | .hbm, ⟨4, _⟩ => ⟨S128x16384, .f32⟩
  | .hbm, ⟨5, _⟩ => ⟨S128x16384, .f32⟩
  | .hbm, ⟨6, _⟩ => ⟨S128x16384, .f32⟩
  | .hbm, ⟨7, _⟩ => ⟨S1x16384, .f32⟩
  | .hbm, ⟨8, _⟩ => ⟨S128x16384, .f32⟩
  | .hbm, ⟨9, _⟩ => ⟨S128x16384, .f32⟩
  | .hbm, ⟨10, _⟩ => ⟨S128x16384, .f32⟩
  | .hbm, ⟨11, _⟩ => ⟨S1x16384, .f32⟩
  | .hbm, ⟨12, _⟩ => ⟨S128x16384, .f32⟩
  | .hbm, ⟨13, _⟩ => ⟨S128x16384, .f32⟩
  | _, _ => ⟨S8x16x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]

class Facts₀ : Prop where
  shapeCasts_S8x16x16384_S128x16384 : S8x16x16384.ShapeCasts S128x16384
  bcast_S16384_S1x16384_1 : S16384.BroadcastsInDim S1x16384 (![1] : Fin 1 → Fin S1x16384.rank)
  bcast_S1x16384_S128x16384_0_1 : S1x16384.BroadcastsInDim S128x16384 (![0, 1] : Fin 2 → Fin S128x16384.rank)
  dot_S128x16384_S16384x16384_S128x16384_1_1_0_0_n_n_wf : DotDims.WF S128x16384 S16384x16384 S128x16384 [1] [1] [0] [0] [] []

variable [Facts₀]

def dot_S128x16384_S16384x16384_S128x16384_1_1_0_0_n_n : DotDims S128x16384 S16384x16384 S128x16384 where
  lhsContracting := [1]
  rhsContracting := [1]
  lhsNonContracting := [0]
  rhsNonContracting := [0]
  lhsBatch := []
  rhsBatch := []
  wf := dot_S128x16384_S16384x16384_S128x16384_1_1_0_0_n_n_wf

class Facts : Prop extends Facts₀ where

variable [Facts]
-- ==== Proof.Pieces.lean ====
/-
  What each case of the body leaves behind, as values of the blocks it loaded.

  Every store of the body writes a whole buffer, so a buffer ends at its last store's value, and a load of the
  accumulator after a store reads that store's value. Hence:
  * at a first point of a run over k (the reset is taken): the accumulator ends at the update of the ZERO block;
  * at every other point: at the update of what the point before left;
  * at a last point of a run over k the output block ends at that updated accumulator plus the bias row.
-/
import proofs.«103453_j72962904424821_1_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.ShloMosaic.Tactic Idealize.SL.Sem Cert.KernelIdeal Cert.KernelIdeal.Gen

variable {F : FTy → Type} [FloatOps F]

theorem hz : (![0, 0] : Fin 2 → Nat) = fun _ => 0 := funext fun a => by fin_cases a <;> rfl

/-- A first point of a run over k: the accumulator ends at the update of the zero block. -/
theorem sout_A (c : Dev nD) (i : grid0.Coords) (arg2 : Memref sig .tc .vmem S256x1024 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S256x2048 .f32) (harg5 : arg5.IsWhole) (arg6 : Memref sig .tc .vmem S256x2048 .f32) (harg6 : arg6.IsWhole) (hc0 : cond0_0 i) (hc1 : ¬cond0_1 i)
    (x0 : Vec F S256x1024 .f32) (x1 : Vec F S2048x1024 .f32) (x2 : Vec F S1x2048 .f32) :
    sout0_A_0 c i arg2 harg2 arg3 harg3 arg4 harg4 arg5 harg5 arg6 harg6 hc0 hc1 x0 x1 x2 = k0_pay2 x0 x1 (k0_pay1 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S256x2048) hz]
  simp only [View.readAt_eq_ld, harg2.read_unread, harg3.read_unread, harg4.read_unread, harg6.read_unread, View.readCov_unit_zero (S := S256x2048) _ hz, View.ld_unit_zero (S := S256x1024) hz, View.ld_unit_zero (S := S2048x1024) hz, View.ld_unit_zero (S := S256x2048) hz, View.ld_unit_zero (S := S1x2048) hz]

/-- A middle point: the accumulator ends at the update of what the point before left. -/
theorem sout_B (c : Dev nD) (i : grid0.Coords) (arg2 : Memref sig .tc .vmem S256x1024 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S256x2048 .f32) (harg5 : arg5.IsWhole) (arg6 : Memref sig .tc .vmem S256x2048 .f32) (harg6 : arg6.IsWhole) (hc0 : ¬cond0_0 i) (hc1 : ¬cond0_1 i)
    (x0 : Vec F S256x1024 .f32) (x1 : Vec F S2048x1024 .f32) (x2 : Vec F S1x2048 .f32) (xs0 : Vec F S256x2048 .f32) :
    sout0_B_0 c i arg2 harg2 arg3 harg3 arg4 harg4 arg5 harg5 arg6 harg6 hc0 hc1 x0 x1 x2 xs0 = k0_pay2 x0 x1 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero (S := S256x2048) hz]
  simp only [View.readAt_eq_ld, harg2.read_unread, harg3.read_unread, harg4.read_unread, harg6.read_unread, View.readCov_unit_zero (S := S256x2048) _ hz, View.ld_unit_zero (S := S256x1024) hz, View.ld_unit_zero (S := S2048x1024) hz, View.ld_unit_zero (S := S256x2048) hz, View.ld_unit_zero (S := S1x2048) hz]

/-- A last point of a run over k: the accumulator likewise, -/
theorem sout_C (c : Dev nD) (i : grid0.Coords) (arg2 : Memref sig .tc .vmem S256x1024 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S256x2048 .f32) (harg5 : arg5.IsWhole) (arg6 : Memref sig .tc .vmem S256x2048 .f32) (harg6 : arg6.IsWhole) (hc0 : ¬cond0_0 i) (hc1 : cond0_1 i)
    (x0 : Vec F S256x1024 .f32) (x1 : Vec F S2048x1024 .f32) (x2 : Vec F S1x2048 .f32) (xs0 : Vec F S256x2048 .f32) :
    sout0_C_0 c i arg2 harg2 arg3 harg3 arg4 harg4 arg5 harg5 arg6 harg6 hc0 hc1 x0 x1 x2 xs0 = k0_pay2 x0 x1 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero (S := S256x2048) hz]
  simp only [View.readAt_eq_ld, harg2.read_unread, harg3.read_unread, harg4.read_unread, harg6.read_unread, View.readCov_unit_zero (S := S256x2048) _ hz, View.ld_unit_zero (S := S256x1024) hz, View.ld_unit_zero (S := S2048x1024) hz, View.ld_unit_zero (S := S256x2048) hz, View.ld_unit_zero (S := S1x2048) hz]

/-- and the output block ends at that accumulator plus the bias row. -/
theorem out_C (c : Dev nD) (i : grid0.Coords) (arg2 : Memref sig .tc .vmem S256x1024 .f32) (harg2 : arg2.IsWhole) (arg3 : Memref sig .tc .vmem S2048x1024 .f32) (harg3 : arg3.IsWhole) (arg4 : Memref sig .tc .vmem S1x2048 .f32) (harg4 : arg4.IsWhole) (arg5 : Memref sig .tc .vmem S256x2048 .f32) (harg5 : arg5.IsWhole) (arg6 : Memref sig .tc .vmem S256x2048 .f32) (harg6 : arg6.IsWhole) (hc0 : ¬cond0_0 i) (hc1 : cond0_1 i)
    (x0 : Vec F S256x1024 .f32) (x1 : Vec F S2048x1024 .f32) (x2 : Vec F S1x2048 .f32) (xs0 : Vec F S256x2048 .f32) :
    out0_C_3 c i arg2 harg2 arg3 harg3 arg4 harg4 arg5 harg5 arg6 harg6 hc0 hc1 x0 x1 x2 xs0 = k0_pay3 (k0_pay2 x0 x1 xs0) x2 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero (S := S256x2048) hz]
  simp only [View.readAt_eq_ld, harg2.read_unread, harg3.read_unread, harg4.read_unread, harg6.read_unread, View.readCov_unit_zero (S := S256x2048) _ hz, View.ld_unit_zero (S := S256x1024) hz, View.ld_unit_zero (S := S2048x1024) hz, View.ld_unit_zero (S := S256x2048) hz, View.ld_unit_zero (S := S1x2048) hz]

end Cert.KernelIdeal.Pieces

end
-- ==== Proof.Payload.lean ====
/-
  The body's three stored values, read at one entry, at the ideal values.

  * the reset value is the zero block;
  * the update is the accumulator plus the product of the x block with the transposed W block: entry (p, q) is
      acc (p, q) + ∑ r < 1024, x (p, r) · w (q, r)
    (both operands are contracted along their second axis; the change of float format before the product is the
    identity on extended reals, and the product accumulates into the zero block);
  * the written-back value is the accumulator plus the bias row broadcast down the 256 rows.
-/
import proofs.«103453_j72962904424821_1_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.Pay

open Idealize.ShloMosaic Idealize.ShloMosaic.ValueIdx Cert.KernelIdeal Cert.KernelIdeal.Gen

/-! ## The product's operand indices, axis by axis -/

theorem lhs_0 (i : S256x2048.Idx) (q : dot_S256x1024_S2048x1024_S256x2048_1_1_0_0_n_n.contr.Idx) :
    (dot_S256x1024_S2048x1024_S256x2048_1_1_0_0_n_n.lhsIdx i q 0).val = (i 0).val := by
  unfold DotDims.lhsIdx
  rw [dif_neg (show ¬(0 : Fin S256x1024.rank) ∈ dot_S256x1024_S2048x1024_S256x2048_1_1_0_0_n_n.lhsBatch by decide), dif_pos (show (0 : Fin S256x1024.rank) ∈ dot_S256x1024_S2048x1024_S256x2048_1_1_0_0_n_n.lhsNonContracting by decide)]
  rfl
theorem lhs_1 (i : S256x2048.Idx) (q : dot_S256x1024_S2048x1024_S256x2048_1_1_0_0_n_n.contr.Idx) :
    (dot_S256x1024_S2048x1024_S256x2048_1_1_0_0_n_n.lhsIdx i q 1).val = (q ⟨0, by decide⟩).val :=
  dot_S256x1024_S2048x1024_S256x2048_1_1_0_0_n_n.lhsIdx_val_of_single rfl i q
theorem rhs_0 (i : S256x2048.Idx) (q : dot_S256x1024_S2048x1024_S256x2048_1_1_0_0_n_n.contr.Idx) :
    (dot_S256x1024_S2048x1024_S256x2048_1_1_0_0_n_n.rhsIdx i q 0).val = (i 1).val := by
  unfold DotDims.rhsIdx
  rw [dif_neg (show ¬(0 : Fin S2048x1024.rank) ∈ dot_S256x1024_S2048x1024_S256x2048_1_1_0_0_n_n.rhsBatch by decide), dif_pos (show (0 : Fin S2048x1024.rank) ∈ dot_S256x1024_S2048x1024_S256x2048_1_1_0_0_n_n.rhsNonContracting by decide)]
  rfl
theorem rhs_1 (i : S256x2048.Idx) (q : dot_S256x1024_S2048x1024_S256x2048_1_1_0_0_n_n.contr.Idx) :
    (dot_S256x1024_S2048x1024_S256x2048_1_1_0_0_n_n.rhsIdx i q 1).val = (q ⟨0, by decide⟩).val :=
  dot_S256x1024_S2048x1024_S256x2048_1_1_0_0_n_n.rhsIdx_val_of_single rfl i q

/-- The block product into the zero block, at entry (p, q): row p of the left block against row q of the right. -/
theorem matmul_block_apply (x : FVec Ideal S256x1024 .bf16) (w : FVec Ideal S2048x1024 .bf16) (p : Fin 256) (q : Fin 2048) :
    matmul dot_S256x1024_S2048x1024_S256x2048_1_1_0_0_n_n none x w (constant (F := Ideal) S256x2048 .f32 0x00000000#32) (ix2 p q)
      = ∑ r : Fin 1024, x (ix2 p r) * w (ix2 q r) := by
  simp only [matmul]
  rw [Ideal.matmul_constant_zero_apply, ← Equiv.sum_comp (contrEquiv1 dot_S256x1024_S2048x1024_S256x2048_1_1_0_0_n_n 1024 rfl rfl).symm]
  refine Finset.sum_congr rfl fun k _ => ?_
  have hk := contrEquiv1_symm_val dot_S256x1024_S2048x1024_S256x2048_1_1_0_0_n_n 1024 rfl rfl k
  have el : dot_S256x1024_S2048x1024_S256x2048_1_1_0_0_n_n.lhsIdx (ix2 p q) ((contrEquiv1 dot_S256x1024_S2048x1024_S256x2048_1_1_0_0_n_n 1024 rfl rfl).symm k) = ix2 p k := funext fun a => Fin.ext (by
    match a with
    | ⟨0, _⟩ => exact lhs_0 _ _
    | ⟨1, _⟩ => exact (lhs_1 _ _).trans hk)
  have er : dot_S256x1024_S2048x1024_S256x2048_1_1_0_0_n_n.rhsIdx (ix2 p q) ((contrEquiv1 dot_S256x1024_S2048x1024_S256x2048_1_1_0_0_n_n 1024 rfl rfl).symm k) = ix2 q k := funext fun a => Fin.ext (by
    match a with
    | ⟨0, _⟩ => exact rhs_0 _ _
    | ⟨1, _⟩ => exact (rhs_1 _ _).trans hk)
  rw [el, er]

/-! ## The payloads -/

/-- The reset stores the zero block. -/
theorem pay1_apply (j : S256x2048.Idx) : k0_pay1 (F := Ideal) j = 0 := by
  unfold k0_pay1
  simp only [shapeCast_self]
  exact Ideal.ofBits_zero_f32

/-- The update, as one term of its loads. -/
theorem pay2_eq (v3 : Vec Ideal S256x1024 .f32) (v6 : Vec Ideal S2048x1024 .f32) (v8 : Vec Ideal S256x2048 .f32) :
    k0_pay2 (F := Ideal) v3 v6 v8
      = addf v8 (matmul dot_S256x1024_S2048x1024_S256x2048_1_1_0_0_n_n none (truncf .bf16 v3 bitsLt_bf16_f32) (truncf .bf16 v6 bitsLt_bf16_f32)
          (constant (F := Ideal) S256x2048 .f32 0x00000000#32)) := by
  unfold k0_pay2
  simp only [shapeCast_self]

/-- The update at entry (p, q). -/
theorem pay2_apply (v3 : Vec Ideal S256x1024 .f32) (v6 : Vec Ideal S2048x1024 .f32) (v8 : Vec Ideal S256x2048 .f32)
    (p : Fin 256) (q : Fin 2048) :
    k0_pay2 (F := Ideal) v3 v6 v8 (ix2 p q) = v8 (ix2 p q) + ∑ r : Fin 1024, v3 (ix2 p r) * v6 (ix2 q r) := by
  rw [pay2_eq]
  refine (addf_apply _ _ _).trans ?_
  exact congrArg (v8 (ix2 p q) + ·) (matmul_block_apply _ _ p q)

/-- The written-back value at entry (p, q): the accumulator plus the bias row's entry q. -/
theorem pay3_apply (v17 : Vec Ideal S256x2048 .f32) (v18 : Vec Ideal S1x2048 .f32) (p : Fin 256) (q : Fin 2048) :
    k0_pay3 (F := Ideal) v17 v18 (ix2 p q) = v17 (ix2 p q) + v18 (ix2 (0 : Fin 1) q) := by
  unfold k0_pay3
  simp only [shapeCast_self]
  refine (addf_apply _ _ _).trans ?_
  refine congrArg (v17 (ix2 p q) + ·) ?_
  exact broadcastTo_apply v18 broadcasts_S1x2048_S256x2048 (ix2 p q) (ix2 (0 : Fin 1) q) (fun a => by
    match a with
    | ⟨0, _⟩ => show (0 : Nat) = if (1 : Nat) = 1 then 0 else p.val; rw [if_pos rfl]
    | ⟨1, _⟩ => show q.val = if (2048 : Nat) = 1 then 0 else q.val; rw [if_neg (by decide)])

end Cert.KernelIdeal.Pay

end
-- ==== Proof.LibBlockSum.lean ====
/-
  A sum over a range of length J·K, cut into J consecutive blocks of length K, in any commutative additive monoid
  (so in particular on the extended reals, where only associativity and commutativity of + are available).
-/
import Mathlib.Algebra.BigOperators.Fin
import Mathlib.Algebra.BigOperators.Intervals

namespace Cert.Lib

open Finset

/-- The sum of `f` over `0 … J·K - 1` is the sum over the blocks `s < J` of the sums of `f (K·s + l)` over `l < K`. -/
theorem sum_range_blocks {β : Type*} [AddCommMonoid β] (f : ℕ → β) (K : ℕ) :
    ∀ J : ℕ, ∑ i ∈ range (J * K), f i = ∑ s ∈ range J, ∑ l ∈ range K, f (K * s + l)
  | 0 => by simp
  | J + 1 => by
    rw [Nat.succ_mul, sum_range_add, sum_range_blocks f K J, sum_range_succ, Nat.mul_comm J K]

/-- The same with the whole sum and the inner sums indexed by `Fin`. -/
theorem sum_fin_blocks {β : Type*} [AddCommMonoid β] (f : ℕ → β) (J K : ℕ) :
    ∑ i : Fin (J * K), f i.val = ∑ s ∈ range J, ∑ l : Fin K, f (K * s + l.val) := by
  rw [Fin.sum_univ_eq_sum_range (fun i => f i) (J * K), sum_range_blocks f K J]
  refine sum_congr rfl fun s _ => ?_
  exact (Fin.sum_univ_eq_sum_range (fun l => f (K * s + l)) K).symm

end Cert.Lib
-- ==== Proof.Spec.lean ====
/-
  The specification. A linear layer shared by two gathered matrices:

      linear t W b (n, j) = (∑ k < 16384, t (n, k) · W (j, k)) + b j        (t : [128, 16384], W : [16384, 16384]).

  The dot product's terms are indexed by natural numbers (zero past the extents), so that a sum over the 16384
  contracted coordinates can be cut into 16 consecutive blocks of 1024 without carrying bounds inside the sums.
  On the extended reals addition is associative and commutative, and that is all the cut needs: no entry has to
  be finite.
-/
import Idealize.ShloMosaic.Lib.ValueIdx
import proofs.«103453_j72962904424821_1_alg».proof.Proof.LibBlockSum

noncomputable section

open scoped BigOperators

namespace Cert.Spec

open Idealize.ShloMosaic Idealize.ShloMosaic.ValueIdx

/-- A matrix of \`R\` rows and 16384 columns of extended reals. -/
abbrev Mat (R : Nat) : Type := (⟨2, ![R, 16384]⟩ : Shape).Idx → EReal

/-- Term \`k\` of the dot product of row \`p\` of \`X\` with row \`j\` of \`W\`; zero when \`j\` or \`k\` is past the extent. -/
def term {R : Nat} (X : Mat R) (W : Mat 16384) (p : Fin R) (j k : Nat) : EReal :=
  if h : j < 16384 ∧ k < 16384 then X (ix2 p ⟨k, h.2⟩) * W (ix2 ⟨j, h.1⟩ ⟨k, h.2⟩) else 0

theorem term_of_lt {R : Nat} (X : Mat R) (W : Mat 16384) (p : Fin R) (j k : Nat) (hj : j < 16384) (hk : k < 16384) :
    term X W p j k = X (ix2 p ⟨k, hk⟩) * W (ix2 ⟨j, hj⟩ ⟨k, hk⟩) := dif_pos ⟨hj, hk⟩

/-- The dot product of row \`p\` of \`X\` with row \`j\` of \`W\`, over all 16384 coordinates. -/
def dot {R : Nat} (X : Mat R) (W : Mat 16384) (p : Fin R) (j : Fin 16384) : EReal :=
  ∑ k : Fin 16384, X (ix2 p k) * W (ix2 j k)

/-- The dot product is the sum of its terms. -/
theorem dot_eq_sum_term {R : Nat} (X : Mat R) (W : Mat 16384) (p : Fin R) (j : Fin 16384) :
    dot X W p j = ∑ k : Fin 16384, term X W p j.val k.val :=
  Finset.sum_congr rfl fun k _ => (term_of_lt X W p j.val k.val j.isLt k.isLt).symm

/-- The contraction cut into 16 consecutive blocks of 1024: the block sums add up to the whole dot product. -/
theorem sum_blocks_eq_dot {R : Nat} (X : Mat R) (W : Mat 16384) (p : Fin R) (j : Fin 16384) :
    ∑ s ∈ Finset.range 16, ∑ r : Fin 1024, term X W p j.val (1024 * s + r.val) = dot X W p j := by
  rw [dot_eq_sum_term]
  exact (Cert.Lib.sum_fin_blocks (fun k => term X W p j.val k) 16 1024).symm

/-- The linear layer: entry \`(n, j)\` is row \`n\` of \`t\` against row \`j\` of \`W\`, plus bias \`j\`. -/
def linear (t : Mat 128) (W : Mat 16384) (b : (⟨1, ![16384]⟩ : Shape).Idx → EReal) : Mat 128 :=
  fun i => dot t W (i 0) (i 1) + b (ix1 (i 1))

theorem linear_apply (t : Mat 128) (W : Mat 16384) (b : (⟨1, ![16384]⟩ : Shape).Idx → EReal) (n : Fin 128) (j : Fin 16384) :
    linear t W b (ix2 n j) = dot t W n j + b (ix1 j) := rfl

end Cert.Spec

end
-- ==== Proof.Accum.lean ====
/-
  The array the kernel's one output window ends holding.

  The grid is 8 × 16: point t has output-column tile j = t / 16 and contraction step k = t % 16. At point t the
  body adds to its accumulator the product of the x block (all 256 rows, columns 1024k …) with the transposed W block
  (rows 2048j …, columns 1024k …): entry (p, q) gains
        ∑ r < 1024, X (p, 1024k + r) · W (2048j + q, 1024k + r).
  The accumulator is reset where k = 0, so after point t it holds the partial sums over the steps 0 … k of tile j
  (by induction on the point). Where k = 15 the partial sum is the whole dot product (the contraction cut into 16
  blocks of 1024), the bias row of tile j is added and the block is written back. Those 8 write-backs tile the
  [256, 16384] array, which therefore ends at
        Y (p, n) = (∑ k < 16384, X (p, k) · W (n, k)) + b₂ (0, n).
-/
import proofs.«103453_j72962904424821_1_alg».proof.Proof.Pieces
import proofs.«103453_j72962904424821_1_alg».proof.Proof.Payload
import proofs.«103453_j72962904424821_1_alg».proof.Proof.Spec

noncomputable section

open scoped BigOperators

namespace Cert.KernelIdeal.Accum

open Idealize.ShloMosaic Idealize.ShloMosaic.TcCoe Idealize.ShloMosaic.ValueIdx Idealize.SL.Sem Cert.KernelIdeal Cert.KernelIdeal.Gen
open Idealize.ShloMosaic.Pipeline (Dat)
open Cert.Spec (Mat term dot)

/-! ## Sums over the contraction steps of one tile -/

section Sums

variable (X : Mat 256) (W : Mat 16384)

/-- What point \`n\` adds at entry (p, q) of its tile. -/
def blockProd (n : Nat) (p : Fin 256) (q : Fin 2048) : EReal :=
  ∑ r : Fin 1024, term X W p (2048 * (n / 16) + q.val) (1024 * (n % 16) + r.val)

/-- The sum of what the points of \`n\`'s tile up to \`n\` add. -/
def partialSum (n : Nat) (p : Fin 256) (q : Fin 2048) : EReal :=
  ∑ s ∈ Finset.range (n % 16 + 1), ∑ r : Fin 1024, term X W p (2048 * (n / 16) + q.val) (1024 * s + r.val)

theorem partialSum_first (n : Nat) (h0 : n % 16 = 0) (p : Fin 256) (q : Fin 2048) :
    partialSum X W n p q = blockProd X W n p q := by
  unfold partialSum blockProd
  rw [h0, Finset.sum_range_one]

theorem partialSum_next (n : Nat) (h0 : ¬(n + 1) % 16 = 0) (p : Fin 256) (q : Fin 2048) :
    partialSum X W (n + 1) p q = partialSum X W n p q + blockProd X W (n + 1) p q := by
  have hd : (n + 1) / 16 = n / 16 := by omega
  have hm : (n + 1) % 16 = n % 16 + 1 := by omega
  unfold partialSum blockProd
  rw [hd, hm, Finset.sum_range_succ]

theorem partialSum_last (n : Nat) (h1 : n % 16 = 15) (p : Fin 256) (q : Fin 2048) (hj : 2048 * (n / 16) + q.val < 16384) :
    partialSum X W n p q = dot X W p ⟨2048 * (n / 16) + q.val, hj⟩ := by
  unfold partialSum
  rw [h1]
  exact Cert.Spec.sum_blocks_eq_dot X W p ⟨2048 * (n / 16) + q.val, hj⟩

end Sums

variable (m : (ℓ : Loc nD τ sig) → Buf (Elt Ideal) ℓ)

/-! ## The arrays as the region finds them, and the blocks a point loads -/

/-- The stacked input, the weight and the bias row as the region finds them. -/
abbrev xarr (c : Dev nD) : Mat 256 := V m c main_v2
abbrev warr (c : Dev nD) : Mat 16384 := V m c main_arg2
abbrev barr (c : Dev nD) : (⟨2, ![1, 16384]⟩ : Shape).Idx → EReal := V m c main_v3

/-- The blocks point \`t\` loads. -/
abbrev xblk (c : Dev nD) (t : Fin cfg0.N) : Vec Ideal S256x1024 .f32 := iblk m c 0 t
abbrev wblk (c : Dev nD) (t : Fin cfg0.N) : Vec Ideal S2048x1024 .f32 := iblk m c 1 t
abbrev bblk (c : Dev nD) (t : Fin cfg0.N) : Vec Ideal S1x2048 .f32 := iblk m c 2 t

/-- The printed index maps over the grid: the tile is t / 16 and the contraction step t % 16. -/
theorem idx_facts : ∀ t : Fin cfg0.N,
    win0_0.index t (0 : Fin 2) = 0 ∧ win0_0.index t (1 : Fin 2) = t.val % 16
    ∧ win0_1.index t (0 : Fin 2) = t.val / 16 ∧ win0_1.index t (1 : Fin 2) = t.val % 16
    ∧ win0_2.index t (0 : Fin 2) = 0 ∧ win0_2.index t (1 : Fin 2) = t.val / 16
    ∧ win0_3.index t (0 : Fin 2) = 0 ∧ win0_3.index t (1 : Fin 2) = t.val / 16 :=
  (by decide +kernel : ∀ t : Fin grid0.N, _)

theorem lt_N (t : Fin cfg0.N) : t.val < 128 := lt_of_lt_of_eq t.isLt (show cfg0.N = 128 from N_0)

/-- The x block at (p, r) is the stacked input at (p, 1024k + r). -/
theorem xblk_apply (c : Dev nD) (t : Fin cfg0.N) (p : Fin 256) (r : Fin 1024) (hk : 1024 * (t.val % 16) + r.val < 16384) :
    xblk m c t (ix2 p r) = xarr m c (ix2 p ⟨1024 * (t.val % 16) + r.val, hk⟩) := by
  obtain ⟨e0, e1, -⟩ := idx_facts t
  show V m c main_v2 (((cfg0.win 0).blk t).view.emb (ix2 p r)) = V m c main_v2 (ix2 p ⟨1024 * (t.val % 16) + r.val, hk⟩)
  refine congrArg (V m c main_v2) (funext fun a => Fin.ext ?_)
  match a with
  | ⟨0, _⟩ => show win0_0.index t (0 : Fin 2) * 256 + 1 * p.val = p.val; rw [e0]; omega
  | ⟨1, _⟩ => show win0_0.index t (1 : Fin 2) * 1024 + 1 * r.val = 1024 * (t.val % 16) + r.val; rw [e1]; omega

/-- The W block at (q, r) is the weight at (2048j + q, 1024k + r). -/
theorem wblk_apply (c : Dev nD) (t : Fin cfg0.N) (q : Fin 2048) (r : Fin 1024) (hj : 2048 * (t.val / 16) + q.val < 16384)
    (hk : 1024 * (t.val % 16) + r.val < 16384) :
    wblk m c t (ix2 q r) = warr m c (ix2 ⟨2048 * (t.val / 16) + q.val, hj⟩ ⟨1024 * (t.val % 16) + r.val, hk⟩) := by
  obtain ⟨-, -, e2, e3, -⟩ := idx_facts t
  show V m c main_arg2 (((cfg0.win 1).blk t).view.emb (ix2 q r)) = V m c main_arg2 (ix2 ⟨2048 * (t.val / 16) + q.val, hj⟩ ⟨1024 * (t.val % 16) + r.val, hk⟩)
  refine congrArg (V m c main_arg2) (funext fun a => Fin.ext ?_)
  match a with
  | ⟨0, _⟩ => show win0_1.index t (0 : Fin 2) * 2048 + 1 * q.val = 2048 * (t.val / 16) + q.val; rw [e2]; omega
  | ⟨1, _⟩ => show win0_1.index t (1 : Fin 2) * 1024 + 1 * r.val = 1024 * (t.val % 16) + r.val; rw [e3]; omega

/-- The bias block at (0, q) is the bias row at (0, 2048j + q). -/
theorem bblk_apply (c : Dev nD) (t : Fin cfg0.N) (q : Fin 2048) (hj : 2048 * (t.val / 16) + q.val < 16384) :
    bblk m c t (ix2 (0 : Fin 1) q) = barr m c (ix2 (0 : Fin 1) ⟨2048 * (t.val / 16) + q.val, hj⟩) := by
  obtain ⟨-, -, -, -, e4, e5, -⟩ := idx_facts t
  show V m c main_v3 (((cfg0.win 2).blk t).view.emb (ix2 (0 : Fin 1) q)) = V m c main_v3 (ix2 (0 : Fin 1) ⟨2048 * (t.val / 16) + q.val, hj⟩)
  refine congrArg (V m c main_v3) (funext fun a => Fin.ext ?_)
  match a with
  | ⟨0, _⟩ => show win0_2.index t (0 : Fin 2) * 1 + 1 * 0 = 0; rw [e4]
  | ⟨1, _⟩ => show win0_2.index t (1 : Fin 2) * 2048 + 1 * q.val = 2048 * (t.val / 16) + q.val; rw [e5]; omega

/-- The product of the two blocks at (p, q) is what the point adds there. -/
theorem blocks_prod (c : Dev nD) (t : Fin cfg0.N) (p : Fin 256) (q : Fin 2048) :
    ∑ r : Fin 1024, xblk m c t (ix2 p r) * wblk m c t (ix2 q r) = blockProd (xarr m c) (warr m c) t.val p q := by
  have hN := lt_N t
  unfold blockProd
  refine Finset.sum_congr rfl fun r _ => ?_
  have hk : 1024 * (t.val % 16) + r.val < 16384 := by have := r.isLt; omega
  have hj : 2048 * (t.val / 16) + q.val < 16384 := by have := q.isLt; omega
  rw [Cert.Spec.term_of_lt _ _ _ _ _ hj hk, xblk_apply m c t p r hk, wblk_apply m c t q r hj hk]

/-! ## The accumulator, point by point -/

/-- At a first point of a tile the accumulator ends at what the point adds (to the zero block). -/
theorem acc_first (c : Dev nD) (t : Fin cfg0.N) (h0 : t.val % 16 = 0) (p : Fin 256) (q : Fin 2048) :
    (outsAt0 m c t.val t.isLt).2 (ix2 p q) = blockProd (xarr m c) (warr m c) t.val p q := by
  have h1 : ¬t.val % 16 = 15 := by omega
  rw [outsAt0_A m c t h0 h1]
  dsimp only
  refine (congrFun (Pieces.sout_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)) (ix2 p q)).trans ?_
  refine (Pay.pay2_apply (xblk m c t) (wblk m c t) _ p q).trans ?_
  rw [Pay.pay1_apply, zero_add]
  exact blocks_prod m c t p q

/-- At every other point it ends at what the point before left plus what the point adds. -/
theorem acc_next (c : Dev nD) (t : Fin cfg0.N) (h0 : ¬t.val % 16 = 0) (p : Fin 256) (q : Fin 2048) :
    (outsAt0 m c t.val t.isLt).2 (ix2 p q)
      = (outsAt0 m c (t.val - 1) (Nat.lt_of_le_of_lt (Nat.sub_le _ _) t.isLt)).2 (ix2 p q) + blockProd (xarr m c) (warr m c) t.val p q := by
  by_cases h1 : t.val % 16 = 15
  · rw [outsAt0_C m c t h0 h1]
    dsimp only
    refine (congrFun (Pieces.sout_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2) (ix2 p q)).trans ?_
    refine (Pay.pay2_apply (xblk m c t) (wblk m c t) _ p q).trans ?_
    exact congrArg ((outsAt0 m c (t.val - 1) (Nat.lt_of_le_of_lt (Nat.sub_le _ _) t.isLt)).2 (ix2 p q) + ·) (blocks_prod m c t p q)
  · rw [outsAt0_B m c t h0 h1]
    dsimp only
    refine (congrFun (Pieces.sout_B (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2) (ix2 p q)).trans ?_
    refine (Pay.pay2_apply (xblk m c t) (wblk m c t) _ p q).trans ?_
    exact congrArg ((outsAt0 m c (t.val - 1) (Nat.lt_of_le_of_lt (Nat.sub_le _ _) t.isLt)).2 (ix2 p q) + ·) (blocks_prod m c t p q)

/-- So after point \`n\` the accumulator holds the partial sums of \`n\`'s tile: by induction on the point. -/
theorem acc_eq (c : Dev nD) (n : Nat) : ∀ (hn : n < cfg0.N) (p : Fin 256) (q : Fin 2048),
    (outsAt0 m c n hn).2 (ix2 p q) = partialSum (xarr m c) (warr m c) n p q := by
  induction n with
  | zero =>
    intro hn p q
    rw [partialSum_first _ _ 0 (Nat.zero_mod 16)]
    exact acc_first m c ⟨0, hn⟩ (Nat.zero_mod 16) p q
  | succ k ih =>
    intro hn p q
    by_cases h0 : (k + 1) % 16 = 0
    · rw [partialSum_first _ _ (k + 1) h0]
      exact acc_first m c ⟨k + 1, hn⟩ h0 p q
    · rw [partialSum_next _ _ k h0, ← ih (Nat.lt_of_succ_lt hn) p q]
      exact acc_next m c ⟨k + 1, hn⟩ h0 p q

/-- At a last point of a tile the output block is the accumulator plus the bias block's row. -/
theorem out_last (c : Dev nD) (t : Fin cfg0.N) (h1 : t.val % 16 = 15) (p : Fin 256) (q : Fin 2048) :
    (outsAt0 m c t.val t.isLt).1 (ix2 p q) = (outsAt0 m c t.val t.isLt).2 (ix2 p q) + bblk m c t (ix2 (0 : Fin 1) q) := by
  have h0 : ¬t.val % 16 = 0 := by omega
  rw [outsAt0_C m c t h0 h1]
  dsimp only
  refine (congrFun (Pieces.out_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2) (ix2 p q)).trans ?_
  refine (Pay.pay3_apply _ (bblk m c t) p q).trans ?_
  refine congrArg (· + bblk m c t (ix2 (0 : Fin 1) q)) ?_
  exact (congrFun (Pieces.sout_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2) (ix2 p q)).symm

/-! ## The output array after the run -/

/-- Every row of the stacked input against every row of the weight, plus the bias row. -/
def ycat (c : Dev nD) : Mat 256 :=
  fun i => dot (xarr m c) (warr m c) (i 0) (i 1) + barr m c (ix2 (0 : Fin 1) (i 1))

/-- What a last point of a tile writes back is its block of that array. -/
theorem flushed_eq (c : Dev nD) (t : Fin cfg0.N) (hf : (cfg0.win 3).flush t = true) :
    (dats m 0 c).flushed 3 t = ((cfg0.win 3).blk t).view.read (Elt Ideal) (ycat m c) := by
  have h1 : t.val % 16 = 15 := (flush0_3 t).mp hf
  have hN := lt_N t
  obtain ⟨-, -, -, -, -, -, e6, e7⟩ := idx_facts t
  show (cfg0.win 3).cut (grid0.coords t) ((dats m 0 c).after 3 t) = _
  rw [after0_3]
  refine funext fun (y : S256x2048.Idx) => ?_
  obtain ⟨p, q, rfl⟩ : ∃ (p : Fin 256) (q : Fin 2048), y = ix2 p q := ⟨y 0, y 1, eq_ix2 y⟩
  have hj : 2048 * (t.val / 16) + q.val < 16384 := by have := q.isLt; omega
  have hemb : ((cfg0.win 3).blk t).view.emb (ix2 p q) = (ix2 p ⟨2048 * (t.val / 16) + q.val, hj⟩ : (⟨2, ![256, 16384]⟩ : Shape).Idx) :=
    funext fun a => Fin.ext (by
      match a with
      | ⟨0, _⟩ => show win0_3.index t (0 : Fin 2) * 256 + 1 * p.val = p.val; rw [e6]; omega
      | ⟨1, _⟩ => show win0_3.index t (1 : Fin 2) * 2048 + 1 * q.val = 2048 * (t.val / 16) + q.val; rw [e7]; omega)
  show (outsAt0 m c t.val t.isLt).1 (ix2 p q) = ycat m c (((cfg0.win 3).blk t).view.emb (ix2 p q))
  rw [hemb, out_last m c t h1 p q, acc_eq m c t.val t.isLt p q, partialSum_last _ _ t.val h1 p q hj, bblk_apply m c t q hj]
  rfl

/-- The 8 write-backs tile the array: column n lies in tile n / 2048, written back at point 16 (n / 2048) + 15. -/
theorem cover (i : (⟨2, ![256, 16384]⟩ : Shape).Idx) :
    ∃ t : Fin cfg0.N, (cfg0.win 3).flush t = true ∧ i ∈ ((cfg0.win 3).blk t).view.set := by
  have hi0 : (i 0).val < 256 := (i 0).isLt
  have hi1 : (i 1).val < 16384 := (i 1).isLt
  have hlt : 16 * ((i 1).val / 2048) + 15 < cfg0.N := by rw [show cfg0.N = 128 from N_0]; omega
  obtain ⟨-, -, -, -, -, -, e6, e7⟩ := idx_facts ⟨16 * ((i 1).val / 2048) + 15, hlt⟩
  refine ⟨⟨16 * ((i 1).val / 2048) + 15, hlt⟩, (flush0_3 _).mpr (by show (16 * ((i 1).val / 2048) + 15) % 16 = 15; omega), ?_⟩
  show i ∈ ((View.whole main_v4).slice (win0_3.rect ⟨16 * ((i 1).val / 2048) + 15, hlt⟩)).set
  rw [View.set_slice_whole, Rect.mem_set_unit]
  intro a
  match a with
  | ⟨0, _⟩ =>
    show win0_3.index ⟨16 * ((i 1).val / 2048) + 15, hlt⟩ (0 : Fin 2) * 256 ≤ (i 0).val ∧ (i 0).val < win0_3.index ⟨16 * ((i 1).val / 2048) + 15, hlt⟩ (0 : Fin 2) * 256 + 256
    rw [e6]; omega
  | ⟨1, _⟩ =>
    show win0_3.index ⟨16 * ((i 1).val / 2048) + 15, hlt⟩ (1 : Fin 2) * 2048 ≤ (i 1).val ∧ (i 1).val < win0_3.index ⟨16 * ((i 1).val / 2048) + 15, hlt⟩ (1 : Fin 2) * 2048 + 2048
    rw [e7]
    show (16 * ((i 1).val / 2048) + 15) / 16 * 2048 ≤ (i 1).val ∧ (i 1).val < (16 * ((i 1).val / 2048) + 15) / 16 * 2048 + 2048
    omega

/-- So the output window's array ends holding it. -/
theorem final (c : Dev nD) : (dats m 0 c).arrAt 3 cfg0.N = ycat m c :=
  (dats m 0 c).arrAt_eq_of_cover 3 (ycat m c) (flushed_eq m c) (cover)

end Cert.KernelIdeal.Accum

end
-- ==== Proof.Result.lean ====
/-
  The idealized kernel's two results are the linear layer of the two reshaped inputs.

  Before the call @main stacks the two reshaped inputs on top of each other (rows 0 … 127 the first, rows 128 … 255 the
  second) and views the bias as one row; after it, the first result is rows 0 … 127 of the call's output and the second
  rows 128 … 255. Row p of the output only involves row p of the stacked input, so each half of the output is the
  linear layer of the matching input.
-/
import proofs.«103453_j72962904424821_1_alg».proof.Proof.Accum
import Idealize.ShloMosaic.Lib.StableHlo.Run

noncomputable section

open scoped BigOperators

namespace Cert.KernelIdeal.Result

open Idealize.ShloMosaic Idealize.ShloMosaic.TcCoe Idealize.ShloMosaic.ValueIdx Idealize.SL.Sem Cert.KernelIdeal Cert.KernelIdeal.Gen
open Idealize.ShloMosaic.Pipeline (Dat)
open Cert.Spec (Mat term dot linear)
open Cert.KernelIdeal.Accum

variable (m : (ℓ : Loc nD τ sig) → Buf (Elt Ideal) ℓ) (ρ : Dev nD → PrngReg)

/-- The two inputs reshaped to [128, 16384]. -/
abbrev t0 (c : Dev nD) : Mat 128 := shapeCast S128x16384 (m ((c : Thread nD τ).loc main_arg0)) shapeCasts_S8x16x16384_S128x16384
abbrev t1 (c : Dev nD) : Mat 128 := shapeCast S128x16384 (m ((c : Thread nD τ).loc main_arg1)) shapeCasts_S8x16x16384_S128x16384

/-! ## The arrays the region finds -/

/-- The stacked input is the concatenation of the two reshaped inputs along the rows. -/
theorem xarr_eq (c : Dev nD) : xarr m c
    = concatenate S256x16384 0 [⟨S128x16384, t0 m c⟩, ⟨S128x16384, t1 m c⟩] concatenates_S128x16384_S128x16384_S256x16384_d0 := by
  show StableHlo.after hostOps0 (fun b => m (c, b)) (Proc.devRef .tc main_v2) = _
  after_results
  rfl

/-- The bias row is the bias viewed as one row. -/
theorem barr_eq (c : Dev nD) : barr m c = shapeCast S1x16384 (m ((c : Thread nD τ).loc main_arg3)) shapeCasts_S16384_S1x16384 := by
  show StableHlo.after hostOps0 (fun b => m (c, b)) (Proc.devRef .tc main_v3) = _
  after_results
  rfl

/-- Rows 0 … 127 of the stacked input are the first reshaped input, -/
theorem xarr_top (c : Dev nD) (n : Fin 128) (k : Fin 16384) (hn : n.val < 256) :
    xarr m c (ix2 ⟨n.val, hn⟩ k) = t0 m c (ix2 n k) := by
  rw [xarr_eq]
  exact concatenate_pair_apply_left (0 : Fin 2) (t0 m c) (t1 m c) concatenates_S128x16384_S128x16384_S256x16384_d0
    (ix2 ⟨n.val, hn⟩ k) rfl (ix2 n k) (fun b => by match b with | ⟨0, _⟩ => rfl | ⟨1, _⟩ => rfl)

/-- and rows 128 … 255 the second. -/
theorem xarr_bot (c : Dev nD) (n : Fin 128) (k : Fin 16384) (hn : 128 + n.val < 256) :
    xarr m c (ix2 ⟨128 + n.val, hn⟩ k) = t1 m c (ix2 n k) := by
  rw [xarr_eq]
  exact concatenate_pair_apply_right (0 : Fin 2) (t0 m c) (t1 m c) concatenates_S128x16384_S128x16384_S256x16384_d0
    (ix2 ⟨128 + n.val, hn⟩ k) rfl rfl (ix2 n k)
    (fun b hb => by match b with | ⟨0, _⟩ => exact absurd rfl hb | ⟨1, _⟩ => rfl)
    (by show n.val + 128 = 128 + n.val; omega)

/-- The bias row at column j is bias j. -/
theorem barr_apply (c : Dev nD) (j : Fin 16384) : barr m c (ix2 (0 : Fin 1) j) = m ((c : Thread nD τ).loc main_arg3) (ix1 j) := by
  rw [barr_eq]
  exact shapeCast_apply _ shapeCasts_S16384_S1x16384 (ix2 (0 : Fin 1) j) (ix1 j)
    (by rewrite [Shape.rowMajor_val_one, Shape.rowMajor_val_two]; show j.val = 0 * 16384 + j.val; omega)

/-- The two halves of the call's output, entry by entry. -/
theorem ycat_top (c : Dev nD) (n : Fin 128) (j : Fin 16384) (hn : n.val < 256) :
    ycat m c (ix2 ⟨n.val, hn⟩ j) = linear (t0 m c) (m ((c : Thread nD τ).loc main_arg2)) (m ((c : Thread nD τ).loc main_arg3)) (ix2 n j) := by
  show dot (xarr m c) (warr m c) ⟨n.val, hn⟩ j + barr m c (ix2 (0 : Fin 1) j) = dot (t0 m c) (m ((c : Thread nD τ).loc main_arg2)) n j + m ((c : Thread nD τ).loc main_arg3) (ix1 j)
  rw [barr_apply, show warr m c = m ((c : Thread nD τ).loc main_arg2) from V_main_arg2 m c]
  refine congrArg (· + m ((c : Thread nD τ).loc main_arg3) (ix1 j)) ?_
  unfold dot
  exact Finset.sum_congr rfl fun k _ => by rw [xarr_top m c n k hn]

theorem ycat_bot (c : Dev nD) (n : Fin 128) (j : Fin 16384) (hn : 128 + n.val < 256) :
    ycat m c (ix2 ⟨128 + n.val, hn⟩ j) = linear (t1 m c) (m ((c : Thread nD τ).loc main_arg2)) (m ((c : Thread nD τ).loc main_arg3)) (ix2 n j) := by
  show dot (xarr m c) (warr m c) ⟨128 + n.val, hn⟩ j + barr m c (ix2 (0 : Fin 1) j) = dot (t1 m c) (m ((c : Thread nD τ).loc main_arg2)) n j + m ((c : Thread nD τ).loc main_arg3) (ix1 j)
  rw [barr_apply, show warr m c = m ((c : Thread nD τ).loc main_arg2) from V_main_arg2 m c]
  refine congrArg (· + m ((c : Thread nD τ).loc main_arg3) (ix1 j)) ?_
  unfold dot
  exact Finset.sum_congr rfl fun k _ => by rw [xarr_bot m c n k hn]

/-! ## The lines after the call -/

/-- After the region the output window's array holds \`ycat\`. -/
theorem out_arr (c : Dev nD) :
    Pipeline.withArrays (cfgs 0).spec c (V0 m c) (fun w => (dats m 0 c).arrAt w (cfgs 0).N) (Proc.devRef .tc main_v4) = ycat m c :=
  (Pipeline.withArrays_arr spec0 launch0.win.arr_inj c (V0 m c) (fun w => (dats m 0 c).arrAt w cfg0.N) 3).trans (final m c)

/-- Rows 0 … 127 of a [256, 16384] matrix, sliced out, entry by entry, -/
theorem slice_top (Y : Mat 256) (n : Fin 128) (j : Fin 16384) (hn : n.val < 256) :
    extractStridedSlice S128x16384 ![0, 0] Y slices_S256x16384_S128x16384_0_0 (ix2 n j) = Y (ix2 ⟨n.val, hn⟩ j) :=
  extractStridedSlice_apply ![0, 0] Y slices_S256x16384_S128x16384_0_0 (ix2 n j) (ix2 ⟨n.val, hn⟩ j) (fun a => by
    match a with
    | ⟨0, _⟩ => show n.val = 0 + n.val; omega
    | ⟨1, _⟩ => show j.val = 0 + j.val; omega)

/-- and rows 128 … 255. -/
theorem slice_bot (Y : Mat 256) (n : Fin 128) (j : Fin 16384) (hn : 128 + n.val < 256) :
    extractStridedSlice S128x16384 ![128, 0] Y slices_S256x16384_S128x16384_128_0 (ix2 n j) = Y (ix2 ⟨128 + n.val, hn⟩ j) :=
  extractStridedSlice_apply ![128, 0] Y slices_S256x16384_S128x16384_128_0 (ix2 n j) (ix2 ⟨128 + n.val, hn⟩ j) (fun a => by
    match a with
    | ⟨0, _⟩ => show 128 + n.val = 128 + n.val; rfl
    | ⟨1, _⟩ => show j.val = 0 + j.val; omega)

/-- The first line after the call slices rows 0 … 127 out of the call's output, -/
theorem tail_v5 (c : Dev nD) : Pipeline.afterTail₀ cfgs (dats m) 0 (V0 m) [hostOps1] c main_v5
    = extractStridedSlice S128x16384 ![0, 0] (ycat m c) slices_S256x16384_S128x16384_0_0 := by
  unfold Pipeline.afterTail₀
  show StableHlo.after hostOps1 _ (Proc.devRef .tc main_v5) = _
  after_results
  exact congrArg (fun A => extractStridedSlice S128x16384 ![0, 0] A slices_S256x16384_S128x16384_0_0) (out_arr m c)

/-- the second rows 128 … 255. -/
theorem tail_v6 (c : Dev nD) : Pipeline.afterTail₀ cfgs (dats m) 0 (V0 m) [hostOps1] c main_v6
    = extractStridedSlice S128x16384 ![128, 0] (ycat m c) slices_S256x16384_S128x16384_128_0 := by
  unfold Pipeline.afterTail₀
  show StableHlo.after hostOps1 _ (Proc.devRef .tc main_v6) = _
  after_results
  exact congrArg (fun A => extractStridedSlice S128x16384 ![128, 0] A slices_S256x16384_S128x16384_128_0) (out_arr m c)

/-- So the first result is the linear layer of the first input, -/
theorem res_v5 (c : Dev nD) : Pipeline.afterTail₀ cfgs (dats m) 0 (V0 m) [hostOps1] c main_v5 = linear (t0 m c) (m ((c : Thread nD τ).loc main_arg2)) (m ((c : Thread nD τ).loc main_arg3)) := by
  refine (tail_v5 m c).trans (funext fun i => ?_)
  obtain ⟨n, j, rfl⟩ : ∃ (n : Fin 128) (j : Fin 16384), i = ix2 n j := ⟨i 0, i 1, eq_ix2 i⟩
  have hn : n.val < 256 := by have := n.isLt; omega
  exact (slice_top (ycat m c) n j hn).trans (ycat_top m c n j hn)

/-- and the second of the second. -/
theorem res_v6 (c : Dev nD) : Pipeline.afterTail₀ cfgs (dats m) 0 (V0 m) [hostOps1] c main_v6 = linear (t1 m c) (m ((c : Thread nD τ).loc main_arg2)) (m ((c : Thread nD τ).loc main_arg3)) := by
  refine (tail_v6 m c).trans (funext fun i => ?_)
  obtain ⟨n, j, rfl⟩ : ∃ (n : Fin 128) (j : Fin 16384), i = ix2 n j := ⟨i 0, i 1, eq_ix2 i⟩
  have hn : 128 + n.val < 256 := by have := n.isLt; omega
  exact (slice_bot (ycat m c) n j hn).trans (ycat_bot m c n j hn)

/-! ## The run, read -/

/-- Every weakly fair execution of the idealized kernel terminates with its two results at the linear layer of the
    two reshaped inputs, and its arguments unchanged. -/
theorem run : θ_run defs (onTc (τ := τ) (main (F := Ideal))) ⟨m, fun _ => 0, ρ⟩ fun r => ∀ c : Dev nD,
      r.2.mem ((c : Thread nD τ).loc main_v5) = linear (t0 m c) (m ((c : Thread nD τ).loc main_arg2)) (m ((c : Thread nD τ).loc main_arg3))
      ∧ r.2.mem ((c : Thread nD τ).loc main_v6) = linear (t1 m c) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨((h c).2 main_v5 (Pipeline.mem_restRefs_of main_v5 (by decide) (by decide))).trans (res_v5 m c),
     ((h c).2 main_v6 (Pipeline.mem_restRefs_of main_v6 (by decide) (by decide))).trans (res_v6 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).1 1).trans (((dats m 0 c).arrAt_in 1 rfl _).trans ((A_eq m c 1).trans (V_main_arg2 m c))),
     ((h c).2 main_arg3 (Pipeline.mem_restRefs_of main_arg3 (by decide) (by decide))).trans (W_main_arg3 m (dats m) c)⟩)
    (run_main m ρ)

end Cert.KernelIdeal.Result

end
-- ==== Proof.RefLinear.lean ====
/-
  The reference computes the linear layer.

  Each of its two results is a host contraction of a reshaped input with the weight along the second axis of both,
  plus the bias broadcast down the rows. Read at entry (n, j) that is the dot product of row n of the reshaped
  input with row j of the weight, plus bias j: the specification's \`linear\`.
-/
import proofs.«103453_j72962904424821_1_alg».proof.Proof.Gen.ReferenceIdeal.Read
import proofs.«103453_j72962904424821_1_alg».proof.Proof.Spec

noncomputable section

open scoped BigOperators

namespace Cert.RefLinear

open Idealize.ShloMosaic Idealize.ShloMosaic.ValueIdx Cert.ReferenceIdeal Cert.ReferenceIdeal.Read

/-! ## The generated index functions, at an entry given by its coordinates -/

theorem lidx_v2 (n : Fin 128) (j k : Fin 16384) : lidx_main_v2 (ix2 n j) k = ix2 n k :=
  funext fun a => Fin.ext (by match a with | ⟨0, _⟩ => rfl | ⟨1, _⟩ => rfl)
theorem ridx_v2 (n : Fin 128) (j k : Fin 16384) : ridx_main_v2 (ix2 n j) k = ix2 j k :=
  funext fun a => Fin.ext (by match a with | ⟨0, _⟩ => rfl | ⟨1, _⟩ => rfl)
theorem lidx_v6 (n : Fin 128) (j k : Fin 16384) : lidx_main_v6 (ix2 n j) k = ix2 n k :=
  funext fun a => Fin.ext (by match a with | ⟨0, _⟩ => rfl | ⟨1, _⟩ => rfl)
theorem ridx_v6 (n : Fin 128) (j k : Fin 16384) : ridx_main_v6 (ix2 n j) k = ix2 j k :=
  funext fun a => Fin.ext (by match a with | ⟨0, _⟩ => rfl | ⟨1, _⟩ => rfl)
theorem bias_v4 (n : Fin 128) (j : Fin 16384) : idx_main_v3 (idx_main_v4 (ix2 n j)) = ix1 j :=
  funext fun a => Fin.ext (by match a with | ⟨0, _⟩ => rfl)
theorem bias_v8 (n : Fin 128) (j : Fin 16384) : idx_main_v7 (idx_main_v8 (ix2 n j)) = ix1 j :=
  funext fun a => Fin.ext (by match a with | ⟨0, _⟩ => rfl)

/-- The first result is the linear layer of the first reshaped input. -/
theorem v5_eq_linear (x0 : S8x16x16384.Idx → EReal) (W : S16384x16384.Idx → EReal) (b : S16384.Idx → EReal) :
    val_main_v5 (F := Ideal) x0 W b = Cert.Spec.linear (val_main_v0 (F := Ideal) x0) W b := by
  funext i
  obtain ⟨n, j, rfl⟩ : ∃ (n : Fin 128) (j : Fin 16384), i = ix2 n j := ⟨i 0, i 1, eq_ix2 i⟩
  rw [val_main_v5_apply, val_main_v2_apply, val_main_v4_apply, val_main_v3_apply, Cert.Spec.linear_apply]
  simp only [lidx_v2, ridx_v2, bias_v4]
  rfl

/-- The second result is the linear layer of the second reshaped input. -/
theorem v9_eq_linear (x1 : S8x16x16384.Idx → EReal) (W : S16384x16384.Idx → EReal) (b : S16384.Idx → EReal) :
    val_main_v9 (F := Ideal) x1 W b = Cert.Spec.linear (val_main_v1 (F := Ideal) x1) W b := by
  funext i
  obtain ⟨n, j, rfl⟩ : ∃ (n : Fin 128) (j : Fin 16384), i = ix2 n j := ⟨i 0, i 1, eq_ix2 i⟩
  rw [val_main_v9_apply, val_main_v6_apply, val_main_v8_apply, val_main_v7_apply, Cert.Spec.linear_apply]
  simp only [lidx_v6, ridx_v6, bias_v8]
  rfl

end Cert.RefLinear

end
-- ==== Proof.lean ====
/-
  A linear layer applied to two gathered matrices: y = t · Wᵀ + b, for t the [8, 16, 16384] inputs x0 and x1 viewed
  as [128, 16384], W [16384, 16384] and b [16384].

  The kernel stacks the two views into one [256, 16384] matrix and runs ONE pipelined product over a grid of
  8 column tiles (2048 columns each) by 16 contraction steps (1024 coordinates each): an accumulator block is zeroed at a
  tile's first step, gains the product of the step's x block with the transposed W block at every step, and at the
  tile's last step is written back with the bias row added; the two results are the top and the bottom half of the
  output. The reference contracts each view with W over all 16384 coordinates at once and adds the bias.

  At the ideal values every float is an extended real, every operation exact and the change of float format before
  the kernel's product the identity, so entry (n, j) of a result is on both sides
        (∑ k < 16384, t (n, k) · W (j, k)) + b j:
  the kernel's sum arrives cut into 16 consecutive blocks of 1024, and regrouping a sum needs only that addition of
  extended reals is associative and commutative (Proof/Spec.lean). No input has to be finite for that, so the
  precondition is never opened.

  Proof/Payload.lean reads the body's stored values at an entry; Proof/Pieces.lean what each case of the body leaves
  in the accumulator and the output block; Proof/Accum.lean the accumulator point by point (induction on the point)
  and the array the output window ends holding; Proof/Result.lean the lines of @main around the call and the run with
  both results at the specification; Proof/RefLinear.lean that the reference's two results are the specification.
  The three frames: the two kernel programs' are the generated frame runs, the reference's its generated run with
  the results dropped. The idealization rewrote nothing, so \`preserves\` is \`True\`.
-/
import proofs.«103453_j72962904424821_1_alg».proof.Defs
import proofs.«103453_j72962904424821_1_alg».proof.Proof.Gen.Kernel
import proofs.«103453_j72962904424821_1_alg».proof.Proof.Gen.Kernel.Skeleton
import proofs.«103453_j72962904424821_1_alg».proof.Proof.Gen.Kernel.Launch
import proofs.«103453_j72962904424821_1_alg».proof.Proof.Gen.Kernel.Points
import proofs.«103453_j72962904424821_1_alg».proof.Proof.Gen.Kernel.Frame
import proofs.«103453_j72962904424821_1_alg».proof.Proof.Gen.KernelIdeal
import proofs.«103453_j72962904424821_1_alg».proof.Proof.Gen.KernelIdeal.Skeleton
import proofs.«103453_j72962904424821_1_alg».proof.Proof.Gen.KernelIdeal.Launch
import proofs.«103453_j72962904424821_1_alg».proof.Proof.Gen.KernelIdeal.Points
import proofs.«103453_j72962904424821_1_alg».proof.Proof.Gen.KernelIdeal.Frame
import proofs.«103453_j72962904424821_1_alg».proof.Proof.Gen.ReferenceIdeal
import proofs.«103453_j72962904424821_1_alg».proof.Proof.Gen.Pre_finite_inputs
import proofs.«103453_j72962904424821_1_alg».proof.Proof.Gen.ReferenceIdeal.Run
import proofs.«103453_j72962904424821_1_alg».proof.Proof.Gen.ReferenceIdeal.Read
import proofs.«103453_j72962904424821_1_alg».proof.Proof.Result
import proofs.«103453_j72962904424821_1_alg».proof.Proof.RefLinear
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- Both programs, from memories that agree on the four arguments, end with each result at the linear layer of the
    matching reshaped input: the kernel by its run read back, the reference by its run and its operations read at an
    entry; the reference's arguments are then rewritten to the kernel's. -/
theorem algebraic : Cert.algebraic_KernelIdeal_ReferenceIdeal := by
  intro m ρ m' ρ' _ hagree
  refine ⟨_, _, Cert.KernelIdeal.Result.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v5_eq, Cert.RefLinear.v5_eq_linear, (hagree c).1, (hagree c).2.2.1, (hagree c).2.2.2]
    rfl
  · rw [Cert.ReferenceIdeal.Read.val_main_v9_eq, Cert.RefLinear.v9_eq_linear, (hagree c).2.1, (hagree c).2.2.1, (hagree c).2.2.2]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
